-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x512 .f32) (main_arg1 : FVec F S4096x4096 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x512 : Shape := ⟨2, ![4096, 512]⟩
abbrev S4096x4096 : Shape := ⟨2, ![4096, 4096]⟩
abbrev S4096x1 : Shape := ⟨2, ![4096, 1]⟩
abbrev S256x512 : Shape := ⟨2, ![256, 512]⟩
abbrev S256x4096 : Shape := ⟨2, ![256, 4096]⟩
abbrev S256x1 : Shape := ⟨2, ![256, 1]⟩
abbrev S256 : Shape := ⟨1, ![256]⟩
abbrev S4096 : Shape := ⟨1, ![4096]⟩
abbrev S1x4096 : Shape := ⟨2, ![1, 4096]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x1, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S256x4096, .f32⟩
  | .local _ .vmem, ⟨4, _⟩ => ⟨S256x4096, .f32⟩
  | .local _ .vmem, ⟨5, _⟩ => ⟨S256x1, .f32⟩
  | .local _ .vmem, ⟨6, _⟩ => ⟨S256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  bitsLt_bf16_f32 : FTy.bits .bf16 < FTy.bits .f32
  reduces_S256x512_S256 : S256x512.Reduces [1] S256
  shapeCasts_S256_S256x1 : S256.ShapeCasts S256x1
  reduces_S4096x512_S4096 : S4096x512.Reduces [1] S4096
  shapeCasts_S4096_S1x4096 : S4096.ShapeCasts S1x4096
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  inb_S256x1_S256x1_0_0 : ∀ a, (![0, 0] : Fin 2 → Nat) a + S256x1.size a ≤ S256x1.size a
  h_S256x1 : 0 < S256x1.numel
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S4096x4096.size a
  hwx0_2 : ∀ i : grid0.Coords, EltTy.bits .f32 = 32 ∨ (Rect.block (s := S4096x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S512x4096 : Shape := ⟨2, ![512, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x512, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S1x4096, .f32⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S512x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S4096x1, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x512_S512x4096_1_0 : S4096x512.Transposes [1, 0] S512x4096
  bcast_S_S4096x4096 : S_.BroadcastsInDim S4096x4096 (![] : Fin 0 → Fin S4096x4096.rank)
  reducesTo_S4096x4096_S4096_d1 : S4096x4096.ReducesTo [1] S4096
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.PointBits.lean ====
/-
  One grid point of the row-stress kernel, as a Hoare triple.

  At a grid point the body is handed four whole VMEM buffers: a block `x` of 256 feature rows, the whole feature
  matrix `y` (4096 rows), the matching block `d` of 256 rows of the distance matrix, and the 256×1 output block.
  It reads the three inputs whole, computes one 256×1 column from them, and overwrites the output block whole.
  So after the point the three inputs are as found and the output buffer holds `storedColumn x y d`: the single
  whole-block store read back.
-/
import proofs.«154992_g58025008169618_cont_9to1_m_242_2_alg».proof.Proof.Gen.Kernel.Launch
import proofs.«154992_g58025008169618_cont_9to1_m_242_2_alg».proof.Proof.Gen.Kernel.Skeleton
import proofs.«154992_g58025008169618_cont_9to1_m_242_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stress

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The rectangles the body touches: each buffer whole. -/
abbrev wholeX : Rect S256x512 := Rect.unit (s := S256x512) ![0, 0] S256x512.size inb_S256x512_S256x512_0_0
abbrev wholeY : Rect S4096x512 := Rect.unit (s := S4096x512) ![0, 0] S4096x512.size inb_S4096x512_S4096x512_0_0
abbrev wholeD : Rect S256x4096 := Rect.unit (s := S256x4096) ![0, 0] S256x4096.size inb_S256x4096_S256x4096_0_0
abbrev wholeOut : Rect S256x1 := Rect.unit (s := S256x1) ![0, 0] S256x1.size inb_S256x1_S256x1_0_0

/-- What the output block holds after one point: the column the body computes from the three input blocks, stored
    over the whole 256×1 block. -/
def storedColumn (x : Vec F S256x512 .f32) (y : Vec F S4096x512 .f32) (d : Vec F S256x4096 .f32) : Vec F S256x1 .f32 :=
  View.canon [⟨wholeOut, k0_pay1 (View.ld x wholeX) (View.ld y wholeY) (View.ld d wholeD)⟩]

/-- The one store covers the output block. -/
theorem store_covers (p0 : Vec F S256x1 .f32) (j : S256x1.Idx) :
    ∃ pc ∈ ([⟨wholeOut, p0⟩] : List (View.Piece (Elt F) S256x1 .f32)), j ∈ pc.1.set :=
  View.cover_of_tiled [⟨wholeOut, p0⟩] S256x1.size (by rfl) j

set_option maxHeartbeats 1000000 in
/-- The body on whole staging memrefs: the three inputs held at `x`, `y`, `d` and the output at anything; it ends
    with the inputs as they were and the output at `storedColumn x y d`. -/
theorem point_triple (c : Dev nD) (E : Set ℕ) (i : grid0.Coords)
    (arg1 : Memref sig .tc .vmem S256x512 .f32) (harg1 : arg1.IsWhole)
    (arg2 : Memref sig .tc .vmem S4096x512 .f32) (harg2 : arg2.IsWhole)
    (arg3 : Memref sig .tc .vmem S256x4096 .f32) (harg3 : arg3.IsWhole)
    (arg4 : Memref sig .tc .vmem S256x1 .f32) (harg4 : arg4.IsWhole)
    (x : Vec F S256x512 .f32) (y : Vec F S4096x512 .f32) (d : Vec F S256x4096 .f32) (K : PUnit → sProp 𝕄) :
    iprop(owns (c : Thread nD τ) arg1 fullShare x ∗ owns (c : Thread nD τ) arg2 fullShare y
        ∗ owns (c : Thread nD τ) arg3 fullShare d ∗ (∃ o, owns (c : Thread nD τ) arg4 fullShare o)
        ∗ (iprop(owns (c : Thread nD τ) arg1 fullShare x ∗ owns (c : Thread nD τ) arg2 fullShare y
            ∗ owns (c : Thread nD τ) arg3 fullShare d ∗ owns (c : Thread nD τ) arg4 fullShare (storedColumn x y d)) -∗ K ⟨⟩))
      ⊢ wp frame (wpE (defs₀ (F := F)) Variants.none c none) E (cc0__stress_block i arg1 harg1 arg2 harg2 arg3 harg3 arg4 harg4) K := by
  simp only [cc0__stress_block_eq_skeleton]; unfold cc0__stress_block_skel
  unfold owns
  iintro ⟨⟨%f1, %hf1, H1⟩, ⟨%f2, %hf2, H2⟩, ⟨%f3, %hf3, H3⟩, ⟨%o, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

end Cert.Kernel.Stress

end
-- ==== Proof.RunBits.lean ====
/-
  The whole run of the row-stress program: one pipelined region over 16 grid points.

  The kernel is handed the feature matrix TWICE: window 0 streams it in blocks of 256 rows, window 1 holds all 4096
  rows (fetched once, at the first point). Both only read it, so the two windows hold the one array behind them at the
  two halves of its full share; the distance matrix (window 2, blocks of 256 rows) and the result (window 3, blocks of
  256 rows, written back at every point) are held whole. At each point every input buffer holds its block of the
  array as the region found it, whether fetched there or left from the point before, and the body leaves the inputs in
  place and `storedColumn` of them in the output buffer. The run therefore ends with both arguments as launched and the
  result array at what the write-backs of the sixteen output blocks make of it.
-/
import proofs.«154992_g58025008169618_cont_9to1_m_242_2_alg».proof.Proof.PointBits
import Idealize.ShloMosaic.Lib.Pipeline.Frame

set_option maxRecDepth 16384

noncomputable section

namespace Cert.Kernel.Stress

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and their blocks -/

/-- Core `c`'s buffers when the region is entered: as launched (the program is the region alone). -/
abbrev V (c : Dev nD) (b : Ref sig .tc) : Buf (Elt F) ((c : Thread nD τ).loc b) := m ((c : Thread nD τ).loc b)

/-- The program up to its region: nothing comes before it. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- What the body may use and need not describe: the core's scoped buffers that are no staging buffer. -/
abbrev idleRest (c : Dev nD) : sProp 𝕄 :=
  Pipeline.scopedRest (Ix := Unit) (Name := ℕ) (U := UR sig nD τ) (Lvl := ℕ) (Val := Elt F) spec0 c

/-- Per core: the arrays as found; after the body each input buffer at its block and the output buffer at
    `storedColumn` of the three; nothing carried between points beyond the core's idle scoped buffers; nothing owed; the
    feature matrix split in halves between its two reading windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => storedColumn (iblk m c 0 t) (iblk m c 1 t) (iblk m c 2 t)
  Φ _ := idleRest c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = storedColumn (iblk m c 0 t) (iblk m c 1 t) (iblk m c 2 t) := by dsimp only [dats]

/-- An input buffer the body leaves in place holds its window's block at every point, fetched there or not: where
    it is not fetched the block index has not moved. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the point's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (point_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## One array behind two reading windows -/

/-- The buffers behind the windows' arrays, listed: the feature matrix once, the distance matrix, the result. -/
theorem arr_refs : Finset.univ.image (Pipeline.arrRef spec0) = [main_arg0, main_arg1, main_v0].toFinset := by decide

/-- The three buffers held whole make the four windows' holdings: the feature matrix's full share is the sum of its
    two halves, one for each window that reads it. -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq _ arr_refs (by decide), bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  rw [h0, h2, h3,
    show (dats m 0 c).share 0 = fullShare.left from rfl, show (dats m 0 c).share 1 = fullShare.right from rfl,
    show (dats m 0 c).share 2 = fullShare from rfl, show (dats m 0 c).share 3 = fullShare from rfl]
  show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)) ⊢ _
  iintro ⟨Hx, Hd, Ho⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [Hd]; · iexact Hd
  iexact Ho

/-! ## The run -/

set_option backward.isDefEq.respectTransparency.types false in
/-- From any memory with zero counters every weakly fair execution of the program terminates without a fault, and
    ends with both arguments as launched and the result array at what the sixteen write-backs leave in it. -/
theorem run_main :
    θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp)) (Z := fun _ => iprop(emp))
    (hX := fun c => by
      rw [unscopedRest0_eq]
      iintro -
      isplitl [] <;> iempintro)
    (hin := fun c => by
      show iprop(emp ∗ idleRest (F := F) c) ⊢ idleRest (F := F) c
      iintro ⟨-, H⟩; iexact H)
    (hout := fun c => by
      show idleRest (F := F) c ⊢ iprop(emp ∗ idleRest (F := F) c)
      iintro H
      isplitr
      · iempintro
      · iexact H)
    (QY := fun _ _ => True)
    (hY := fun c s' => by
      iintro ⟨-, -, HSI⟩
      imodintro
      isplitr
      · ipureintro; trivial
      · iexact HSI)
    (hQ := fun s h c => ⟨(h c).1 3,
      ((h c).1 0).trans (((dats m 0 c).arrAt_in 0 rfl _).trans rfl),
      ((h c).1 2).trans (((dats m 0 c).arrAt_in 2 rfl _).trans rfl)⟩)

/-- The frame: the program runs to the end, faults nowhere, and leaves its arguments unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.Kernel.Stress

end
-- ==== Proof.PointIdeal.lean ====
/-
  One grid point of the row-stress kernel, as a Hoare triple.

  At a grid point the body is handed four whole VMEM buffers: a block `x` of 256 feature rows, the whole feature
  matrix `y` (4096 rows), the matching block `d` of 256 rows of the distance matrix, and the 256×1 output block.
  It reads the three inputs whole, computes one 256×1 column from them, and overwrites the output block whole.
  So after the point the three inputs are as found and the output buffer holds `storedColumn x y d`: the single
  whole-block store read back.
-/
import proofs.«154992_g58025008169618_cont_9to1_m_242_2_alg».proof.Proof.Gen.KernelIdeal.Launch
import proofs.«154992_g58025008169618_cont_9to1_m_242_2_alg».proof.Proof.Gen.KernelIdeal.Skeleton
import proofs.«154992_g58025008169618_cont_9to1_m_242_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stress

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The rectangles the body touches: each buffer whole. -/
abbrev wholeX : Rect S256x512 := Rect.unit (s := S256x512) ![0, 0] S256x512.size inb_S256x512_S256x512_0_0
abbrev wholeY : Rect S4096x512 := Rect.unit (s := S4096x512) ![0, 0] S4096x512.size inb_S4096x512_S4096x512_0_0
abbrev wholeD : Rect S256x4096 := Rect.unit (s := S256x4096) ![0, 0] S256x4096.size inb_S256x4096_S256x4096_0_0
abbrev wholeOut : Rect S256x1 := Rect.unit (s := S256x1) ![0, 0] S256x1.size inb_S256x1_S256x1_0_0

/-- What the output block holds after one point: the column the body computes from the three input blocks, stored
    over the whole 256×1 block. -/
def storedColumn (x : Vec F S256x512 .f32) (y : Vec F S4096x512 .f32) (d : Vec F S256x4096 .f32) : Vec F S256x1 .f32 :=
  View.canon [⟨wholeOut, k0_pay1 (View.ld x wholeX) (View.ld y wholeY) (View.ld d wholeD)⟩]

/-- The one store covers the output block. -/
theorem store_covers (p0 : Vec F S256x1 .f32) (j : S256x1.Idx) :
    ∃ pc ∈ ([⟨wholeOut, p0⟩] : List (View.Piece (Elt F) S256x1 .f32)), j ∈ pc.1.set :=
  View.cover_of_tiled [⟨wholeOut, p0⟩] S256x1.size (by rfl) j

set_option maxHeartbeats 1000000 in
/-- The body on whole staging memrefs: the three inputs held at `x`, `y`, `d` and the output at anything; it ends
    with the inputs as they were and the output at `storedColumn x y d`. -/
theorem point_triple (c : Dev nD) (E : Set ℕ) (i : grid0.Coords)
    (arg1 : Memref sig .tc .vmem S256x512 .f32) (harg1 : arg1.IsWhole)
    (arg2 : Memref sig .tc .vmem S4096x512 .f32) (harg2 : arg2.IsWhole)
    (arg3 : Memref sig .tc .vmem S256x4096 .f32) (harg3 : arg3.IsWhole)
    (arg4 : Memref sig .tc .vmem S256x1 .f32) (harg4 : arg4.IsWhole)
    (x : Vec F S256x512 .f32) (y : Vec F S4096x512 .f32) (d : Vec F S256x4096 .f32) (K : PUnit → sProp 𝕄) :
    iprop(owns (c : Thread nD τ) arg1 fullShare x ∗ owns (c : Thread nD τ) arg2 fullShare y
        ∗ owns (c : Thread nD τ) arg3 fullShare d ∗ (∃ o, owns (c : Thread nD τ) arg4 fullShare o)
        ∗ (iprop(owns (c : Thread nD τ) arg1 fullShare x ∗ owns (c : Thread nD τ) arg2 fullShare y
            ∗ owns (c : Thread nD τ) arg3 fullShare d ∗ owns (c : Thread nD τ) arg4 fullShare (storedColumn x y d)) -∗ K ⟨⟩))
      ⊢ wp frame (wpE (defs₀ (F := F)) Variants.none c none) E (cc0__stress_block i arg1 harg1 arg2 harg2 arg3 harg3 arg4 harg4) K := by
  simp only [cc0__stress_block_eq_skeleton]; unfold cc0__stress_block_skel
  unfold owns
  iintro ⟨⟨%f1, %hf1, H1⟩, ⟨%f2, %hf2, H2⟩, ⟨%f3, %hf3, H3⟩, ⟨%o, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (store_covers _)

end Cert.KernelIdeal.Stress

end
-- ==== Proof.RunIdeal.lean ====
/-
  The whole run of the row-stress program: one pipelined region over 16 grid points.

  The kernel is handed the feature matrix TWICE: window 0 streams it in blocks of 256 rows, window 1 holds all 4096
  rows (fetched once, at the first point). Both only read it, so the two windows hold the one array behind them at the
  two halves of its full share; the distance matrix (window 2, blocks of 256 rows) and the result (window 3, blocks of
  256 rows, written back at every point) are held whole. At each point every input buffer holds its block of the
  array as the region found it, whether fetched there or left from the point before, and the body leaves the inputs in
  place and `storedColumn` of them in the output buffer. The run therefore ends with both arguments as launched and the
  result array at what the write-backs of the sixteen output blocks make of it.
-/
import proofs.«154992_g58025008169618_cont_9to1_m_242_2_alg».proof.Proof.PointIdeal
import Idealize.ShloMosaic.Lib.Pipeline.Frame

set_option maxRecDepth 16384

noncomputable section

namespace Cert.KernelIdeal.Stress

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and their blocks -/

/-- Core `c`'s buffers when the region is entered: as launched (the program is the region alone). -/
abbrev V (c : Dev nD) (b : Ref sig .tc) : Buf (Elt F) ((c : Thread nD τ).loc b) := m ((c : Thread nD τ).loc b)

/-- The program up to its region: nothing comes before it. -/
theorem hmain (𝒱₀ : Variants) :
    Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The proof data -/

/-- What the body may use and need not describe: the core's scoped buffers that are no staging buffer. -/
abbrev idleRest (c : Dev nD) : sProp 𝕄 :=
  Pipeline.scopedRest (Ix := Unit) (Name := ℕ) (U := UR sig nD τ) (Lvl := ℕ) (Val := Elt F) spec0 c

/-- Per core: the arrays as found; after the body each input buffer at its block and the output buffer at
    `storedColumn` of the three; nothing carried between points beyond the core's idle scoped buffers; nothing owed; the
    feature matrix split in halves between its two reading windows. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => storedColumn (iblk m c 0 t) (iblk m c 1 t) (iblk m c 2 t)
  Φ _ := idleRest c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = storedColumn (iblk m c 0 t) (iblk m c 1 t) (iblk m c 2 t) := by dsimp only [dats]

/-- An input buffer the body leaves in place holds its window's block at every point, fetched there or not: where
    it is not fetched the block index has not moved. -/
theorem before_0 (c : Dev nD) (t : Fin cfg0.N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the input buffers hold their blocks, so the point's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  iintro ⟨HΦ, Ho, ⟨%d0, H0⟩, ⟨%d1, H1⟩, ⟨%d2, H2⟩, ⟨%d3, H3⟩⟩
  iapply (point_triple c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## One array behind two reading windows -/

/-- The buffers behind the windows' arrays, listed: the feature matrix once, the distance matrix, the result. -/
theorem arr_refs : Finset.univ.image (Pipeline.arrRef spec0) = [main_arg0, main_arg1, main_v0].toFinset := by decide

/-- The three buffers held whole make the four windows' holdings: the feature matrix's full share is the sum of its
    two halves, one for each window that reads it. -/
theorem arrays_of_bufs (c : Dev nD) :
    (Pipeline.arrBufs spec0 c (V m c) : sProp 𝕄) ⊢ (dats m 0 c).arrays ((dats m 0 c).arrAt · 0) := by
  unfold Pipeline.arrBufs Dat.arrays
  rw [bigSep_eq_bigSepL_of_eq _ arr_refs (by decide), bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  rw [h0, h2, h3,
    show (dats m 0 c).share 0 = fullShare.left from rfl, show (dats m 0 c).share 1 = fullShare.right from rfl,
    show (dats m 0 c).share 2 = fullShare from rfl, show (dats m 0 c).share 3 = fullShare from rfl]
  show iprop((((c.tc : Thread nD τ).loc main_arg0) ↦{fullShare} V m c main_arg0)
      ∗ (((c.tc : Thread nD τ).loc main_arg1) ↦{fullShare} V m c main_arg1)
      ∗ (((c.tc : Thread nD τ).loc main_v0) ↦{fullShare} V m c main_v0)) ⊢ _
  iintro ⟨Hx, Hd, Ho⟩
  ihave Hx2 := (pointsTo_share (PosShare.mem_left_op_right fullShare)).1 $$ Hx
  icases Hx2 with ⟨Hxl, Hxr⟩
  isplitl [Hxl]; · iexact Hxl
  isplitl [Hxr]; · iexact Hxr
  isplitl [Hd]; · iexact Hd
  iexact Ho

/-! ## The run -/

set_option backward.isDefEq.respectTransparency.types false in
/-- From any memory with zero counters every weakly fair execution of the program terminates without a fault, and
    ends with both arguments as launched and the result array at what the sixteen write-backs leave in it. -/
theorem run_main :
    θ_run defs (onTc (τ := τ) (main (F := F))) ⟨m, fun _ => 0, ρ⟩ (fun r => ∀ c : Dev nD,
      r.2.mem ((c.tc : Thread nD τ).loc main_v0) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := arrays_of_bufs m)
    (X := fun _ => iprop(emp)) (Y := fun _ => iprop(emp)) (Z := fun _ => iprop(emp))
    (hX := fun c => by
      rw [unscopedRest0_eq]
      iintro -
      isplitl [] <;> iempintro)
    (hin := fun c => by
      show iprop(emp ∗ idleRest (F := F) c) ⊢ idleRest (F := F) c
      iintro ⟨-, H⟩; iexact H)
    (hout := fun c => by
      show idleRest (F := F) c ⊢ iprop(emp ∗ idleRest (F := F) c)
      iintro H
      isplitr
      · iempintro
      · iexact H)
    (QY := fun _ _ => True)
    (hY := fun c s' => by
      iintro ⟨-, -, HSI⟩
      imodintro
      isplitr
      · ipureintro; trivial
      · iexact HSI)
    (hQ := fun s h c => ⟨(h c).1 3,
      ((h c).1 0).trans (((dats m 0 c).arrAt_in 0 rfl _).trans rfl),
      ((h c).1 2).trans (((dats m 0 c).arrAt_in 2 rfl _).trans rfl)⟩)

/-- The frame: the program runs to the end, faults nowhere, and leaves its arguments unchanged. -/
theorem frame :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_main m ρ)

end Cert.KernelIdeal.Stress

end
-- ==== Proof.StressSpec.lean ====
/-
  The function both programs compute, over the extended reals.

  For feature rows x_i (rows of an [n, K] matrix), feature rows y_j (rows of an [m, K] matrix) and given distances
  d(i, j): the squared norms |x_i|² = Σ_k x(i,k)², the inner products ⟨x_i, y_j⟩ = Σ_k x(i,k)·y(j,k), the pairwise
  distance  dist(i, j) = √ max(|x_i|² + |y_j|² − 2·⟨x_i, y_j⟩, ε)  with the two constants as the binary32 words both
  programs carry (2.0 and the float nearest 1e-12), and the row stress  Σ_j |d(i, j) − dist(i, j)|, the absolute value
  written max(v, −v) as both programs' operation reads on the extended reals. The reference is this with x = y = the whole
  feature matrix; one grid point of the kernel is this with x a block of 256 of its rows.
-/
import Idealize.ShloMosaic.PureOps.Ideal
import Idealize.ShloMosaic.Lib.ValueIdx

noncomputable section

namespace Cert.StressSpec

open Idealize.ShloMosaic Idealize.ShloMosaic.ValueIdx

/-- The factor 2 and the floor under the square root, as the words both programs print. -/
abbrev two : EReal := Ideal.ofBits .f32 0x40000000#32
abbrev floorWord : EReal := Ideal.ofBits .f32 0x2B8CBCCC#32

variable {n m K : ℕ}

/-- |x_i|². -/
def sqNorm (x : (⟨2, ![n, K]⟩ : Shape).Idx → EReal) (i : Fin n) : EReal := ∑ k : Fin K, x (ix2 i k) * x (ix2 i k)

/-- ⟨x_i, y_j⟩. -/
def rowDot (x : (⟨2, ![n, K]⟩ : Shape).Idx → EReal) (y : (⟨2, ![m, K]⟩ : Shape).Idx → EReal) (i : Fin n) (j : Fin m) : EReal :=
  ∑ k : Fin K, x (ix2 i k) * y (ix2 j k)

/-- The distance between x_i and y_j, floored before the root. -/
def pairDist (x : (⟨2, ![n, K]⟩ : Shape).Idx → EReal) (y : (⟨2, ![m, K]⟩ : Shape).Idx → EReal) (i : Fin n) (j : Fin m) : EReal :=
  Ideal.sqrt (max (sqNorm x i + sqNorm y j - two * rowDot x y i j) floorWord)

/-- |d(i, j) − dist(i, j)|. -/
def absDev (x : (⟨2, ![n, K]⟩ : Shape).Idx → EReal) (y : (⟨2, ![m, K]⟩ : Shape).Idx → EReal)
    (d : (⟨2, ![n, m]⟩ : Shape).Idx → EReal) (i : Fin n) (j : Fin m) : EReal :=
  max (d (ix2 i j) - pairDist x y i j) (-(d (ix2 i j) - pairDist x y i j))

/-- The stress of row i: its deviations summed over all j. -/
def rowStress (x : (⟨2, ![n, K]⟩ : Shape).Idx → EReal) (y : (⟨2, ![m, K]⟩ : Shape).Idx → EReal)
    (d : (⟨2, ![n, m]⟩ : Shape).Idx → EReal) (i : Fin n) : EReal :=
  ∑ j : Fin m, absDev x y d i j

/-- A row's stress depends only on that row of x and of d: if row i of a block (x, d) is row I of (X, D), the two
    stresses against the same y agree. -/
theorem rowStress_of_rows {N : ℕ} (X : (⟨2, ![N, K]⟩ : Shape).Idx → EReal) (D : (⟨2, ![N, m]⟩ : Shape).Idx → EReal)
    (x : (⟨2, ![n, K]⟩ : Shape).Idx → EReal) (d : (⟨2, ![n, m]⟩ : Shape).Idx → EReal)
    (y : (⟨2, ![m, K]⟩ : Shape).Idx → EReal) (i : Fin n) (I : Fin N)
    (hx : ∀ k, x (ix2 i k) = X (ix2 I k)) (hd : ∀ j, d (ix2 i j) = D (ix2 I j)) :
    rowStress x y d i = rowStress X y D I := by
  unfold rowStress absDev pairDist sqNorm rowDot
  simp only [hx, hd]

/-- The result column [N, 1] of the whole problem: entry (i, 0) is row i's stress, x = y = the feature matrix. -/
def column {N : ℕ} (X : (⟨2, ![N, K]⟩ : Shape).Idx → EReal) (D : (⟨2, ![N, N]⟩ : Shape).Idx → EReal) :
    (⟨2, ![N, 1]⟩ : Shape).Idx → EReal :=
  fun o => rowStress X X D ⟨(o 0).val, idx2_lt0 o⟩

theorem column_apply {N : ℕ} (X : (⟨2, ![N, K]⟩ : Shape).Idx → EReal) (D : (⟨2, ![N, N]⟩ : Shape).Idx → EReal)
    (p : Fin N) (q : Fin 1) : column X D (ix2 p q) = rowStress X X D p := rfl

end Cert.StressSpec

end
-- ==== Proof.LibKeepdims.lean ====
/- Readings at an index, written by coordinates, for a row reduction kept as a column (jnp's `sum(axis=1, keepdims=True)`), at
   any extents: a vector [a] cast to the one-column matrix [a, 1]; and, over the extended reals, the sum of a matrix's
   rows (a `vector.multi_reduction <add>` over axis 1 from the zero word) read at a row. -/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

/-- A vector [a] cast to the one-column matrix [a, 1] reads, at (p, u), the vector's entry p, whatever the unit
    coordinate u. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The reduced index `i` of a matrix's rows with column `k` put back is (i, k). -/
theorem lift_axis1 {n K : ℕ} (h : (⟨2, ![n, K]⟩ : Shape).Reduces [1] (⟨1, ![n]⟩ : Shape)) (i : Fin n)
    (k : Fin ((⟨2, ![n, K]⟩ : Shape).size 1)) : h.lift (ix1 i) k = ix2 i (⟨k.val, k.isLt⟩ : Fin K) := by
  funext c; apply Fin.ext
  fin_cases c <;> rfl

/-- Over the extended reals, the sum of each row of an [n, K] matrix from the zero word, read at row i: the plain sum
    of the row's K entries. -/
theorem rowSum_apply {n K : ℕ} (z : FVec Ideal ⟨2, ![n, K]⟩ .f32) (h : (⟨2, ![n, K]⟩ : Shape).Reduces [1] (⟨1, ![n]⟩ : Shape))
    (hφ : FKind.Formats .f32) (hacc : (0x00000000#32 : BitVec 32) = FKind.add.neutral .f32 hφ) (i : Fin n) :
    multiReduction .add [1] ⟨1, ![n]⟩ z 0x00000000#32 h hφ hacc (ix1 i) = ∑ k : Fin K, z (ix2 i k) :=
  (Ideal.multiReduction_add_single z _ h hφ hacc (ix1 i)).trans
    (Finset.sum_congr rfl fun k _ => congrArg z (lift_axis1 h i k))

end Cert.LibKeepdims
-- ==== Proof.LibColumns.lean ====
/- Three readings of layout operations at an index written by coordinates, at any extents and any element type:
   a one-column matrix broadcast along its rows; a column of a [1, a, b] block after its unit axis is dropped; a row of the
   transpose of such a block. Each composes the library's one-operation readings (a slice along one axis, a transpose, a
   dropped leading unit axis, a broadcast) for the shape a kernel body meets when it splits a block of 3-vectors
   into its coordinate columns (or, transposed, its coordinate rows) and broadcasts them against each other. -/
import Idealize.ShloMosaic.Lib.Pipeline.Value
import Idealize.ShloMosaic.Lib.ValueIdx
import Idealize.ShloMosaic.Lib.ValueLayout

namespace Cert.LibColumns

open Idealize.ShloMosaic Idealize.ShloMosaic.ValueIdx

/-- A one-column matrix [a, 1] broadcast to [a, b] reads, at (p, c), the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column k of a [1, a, b] block, taken (as the slice at column offset o = k) after the unit axis is dropped, reads at
    row r the block's entry (0, r, k). -/
theorem column_apply {α : Type} {a b : ℕ} (o : ℕ) (x : (⟨3, ![1, a, b]⟩ : Shape).Idx → α)
    (hc : (⟨3, ![1, a, b]⟩ : Shape).ShapeCasts ⟨2, ![a, b]⟩) (hs : (⟨2, ![a, b]⟩ : Shape).Slices ![0, o] ⟨2, ![a, 1]⟩)
    (r : Fin a) (k : Fin b) (hk : k.val = o) :
    extractStridedSlice ⟨2, ![a, 1]⟩ ![0, o] (shapeCast ⟨2, ![a, b]⟩ x hc) hs (ix2 r (0 : Fin 1)) = x (ix3 (0 : Fin 1) r k) :=
  (slice2_axis1_apply o _ hs r (0 : Fin 1) k (by rw [hk]; rfl)).trans (shapeCast_1ab_ab_apply x hc r k)

/-- Row k of the transpose of a [1, a, b] block (the unit axis dropped first; the slice at row offset o = k) reads at
    column q the block's entry (0, q, k). -/
theorem transposed_row_apply {α : Type} {a b : ℕ} (o : ℕ) (x : (⟨3, ![1, a, b]⟩ : Shape).Idx → α)
    (hc : (⟨3, ![1, a, b]⟩ : Shape).ShapeCasts ⟨2, ![a, b]⟩) (ht : (⟨2, ![a, b]⟩ : Shape).Transposes [1, 0] ⟨2, ![b, a]⟩)
    (hs : (⟨2, ![b, a]⟩ : Shape).Slices ![o, 0] ⟨2, ![1, a]⟩) (q : Fin a) (k : Fin b) (hk : k.val = o) :
    extractStridedSlice ⟨2, ![1, a]⟩ ![o, 0] (transpose ⟨2, ![b, a]⟩ [1, 0] (shapeCast ⟨2, ![a, b]⟩ x hc) ht) hs (ix2 (0 : Fin 1) q)
      = x (ix3 (0 : Fin 1) q k) :=
  (slice2_axis0_apply o _ hs (0 : Fin 1) q k (by rw [hk]; rfl)).trans
    ((transpose_ix2_apply _ ht k q).trans (shapeCast_1ab_ab_apply x hc q k))

end Cert.LibColumns
-- ==== Proof.PayloadValue.lean ====
/-
  What one grid point computes, read at an index: the column the body stores is the row stress of its block.

  The body's arithmetic on a block x of 256 feature rows, the whole feature matrix y and the block d of 256 distance
  rows is, over the extended reals (where narrowing to bf16 changes nothing): the matrix-unit product of x with y
  contracted over the 512 features, from the zero accumulator, is ⟨x_r, y_j⟩ at (r, j); the two row-sum reductions
  are |x_r|² and |y_j|², laid out as a column and as a row and broadcast against each other; then the floored root,
  the deviation from d, its absolute value and the sum over j, kept as a one-column block.
-/
import proofs.«154992_g58025008169618_cont_9to1_m_242_2_alg».proof.Proof.Gen.KernelIdeal.Skeleton
import proofs.«154992_g58025008169618_cont_9to1_m_242_2_alg».proof.Proof.StressSpec
import proofs.«154992_g58025008169618_cont_9to1_m_242_2_alg».proof.Proof.LibKeepdims
import proofs.«154992_g58025008169618_cont_9to1_m_242_2_alg».proof.Proof.LibColumns
import Idealize.ShloMosaic.Lib.ValueLayout
import Idealize.ShloMosaic.PureOps.Ideal.Laws

noncomputable section

namespace Cert.KernelIdeal.BlockStress

open Cert.KernelIdeal Cert.KernelIdeal.Gen
open Idealize.ShloMosaic Idealize.ShloMosaic.ValueIdx Cert.StressSpec Cert.LibKeepdims Cert.LibColumns

/-- The product's operand indices, axis by axis: the left operand is read at (r, k), the right at (j, k). -/
theorem lhs_axis0 (i : S256x4096.Idx) (q : dot_S256x512_S4096x512_S256x4096_1_1_0_0_n_n.contr.Idx) :
    (dot_S256x512_S4096x512_S256x4096_1_1_0_0_n_n.lhsIdx i q 0).val = (i 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem lhs_axis1 (i : S256x4096.Idx) (q : dot_S256x512_S4096x512_S256x4096_1_1_0_0_n_n.contr.Idx) :
    (dot_S256x512_S4096x512_S256x4096_1_1_0_0_n_n.lhsIdx i q 1).val = (q ⟨0, by decide⟩).val :=
  dot_S256x512_S4096x512_S256x4096_1_1_0_0_n_n.lhsIdx_val_of_single rfl i q
theorem rhs_axis0 (i : S256x4096.Idx) (q : dot_S256x512_S4096x512_S256x4096_1_1_0_0_n_n.contr.Idx) :
    (dot_S256x512_S4096x512_S256x4096_1_1_0_0_n_n.rhsIdx i q 0).val = (i 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem rhs_axis1 (i : S256x4096.Idx) (q : dot_S256x512_S4096x512_S256x4096_1_1_0_0_n_n.contr.Idx) :
    (dot_S256x512_S4096x512_S256x4096_1_1_0_0_n_n.rhsIdx i q 1).val = (q ⟨0, by decide⟩).val :=
  dot_S256x512_S4096x512_S256x4096_1_1_0_0_n_n.rhsIdx_val_of_single rfl i q

/-- The matrix-unit product from the zero accumulator at (r, j) is ⟨x_r, y_j⟩. -/
theorem product_apply (x : FVec Ideal S256x512 .bf16) (y : FVec Ideal S4096x512 .bf16) (r : Fin 256) (j : Fin 4096) :
    matmul dot_S256x512_S4096x512_S256x4096_1_1_0_0_n_n none x y (constant S256x4096 .f32 0x00000000#32) (ix2 r j)
      = ∑ k : Fin 512, x (ix2 r k) * y (ix2 j k) := by
  show FloatOps.matmul _ _ _ _ _ _ = _
  rw [Ideal.matmul_constant_zero_apply, ← Equiv.sum_comp (ValueIdx.contrEquiv1 dot_S256x512_S4096x512_S256x4096_1_1_0_0_n_n 512 rfl rfl).symm]
  refine Finset.sum_congr rfl fun k _ => ?_
  have hk := ValueIdx.contrEquiv1_symm_val dot_S256x512_S4096x512_S256x4096_1_1_0_0_n_n 512 rfl rfl k
  have el : dot_S256x512_S4096x512_S256x4096_1_1_0_0_n_n.lhsIdx (ix2 r j) ((ValueIdx.contrEquiv1 dot_S256x512_S4096x512_S256x4096_1_1_0_0_n_n 512 rfl rfl).symm k) = ix2 r k := funext fun a => Fin.ext (by
    match a with
    | ⟨0, _⟩ => exact lhs_axis0 _ _
    | ⟨1, _⟩ => exact (lhs_axis1 _ _).trans hk)
  have er : dot_S256x512_S4096x512_S256x4096_1_1_0_0_n_n.rhsIdx (ix2 r j) ((ValueIdx.contrEquiv1 dot_S256x512_S4096x512_S256x4096_1_1_0_0_n_n 512 rfl rfl).symm k) = ix2 j k := funext fun a => Fin.ext (by
    match a with
    | ⟨0, _⟩ => exact rhs_axis0 _ _
    | ⟨1, _⟩ => exact (rhs_axis1 _ _).trans hk)
  rw [el, er]

/-! ## The body's stages, named -/

/-- |x_r|² for the 256 rows of the block, as a column. -/
def sqCol (x : FVec Ideal S256x512 .f32) : FVec Ideal S256x1 .f32 :=
  shapeCast S256x1 (multiReduction .add [1] S256 (mulf x x) 0x00000000#32 reduces_S256x512_S256 (.inl rfl) rfl) shapeCasts_S256_S256x1

/-- |y_j|² for all 4096 rows, as a row. -/
def sqRow (y : FVec Ideal S4096x512 .f32) : FVec Ideal S1x4096 .f32 :=
  shapeCast S1x4096 (multiReduction .add [1] S4096 (mulf y y) 0x00000000#32 reduces_S4096x512_S4096 (.inl rfl) rfl) shapeCasts_S4096_S1x4096

/-- The products ⟨x_r, y_j⟩, on operands narrowed to bf16 (the identity here). -/
def prods (x : FVec Ideal S256x512 .f32) (y : FVec Ideal S4096x512 .f32) : FVec Ideal S256x4096 .f32 :=
  matmul dot_S256x512_S4096x512_S256x4096_1_1_0_0_n_n none (truncf .bf16 x bitsLt_bf16_f32) (truncf .bf16 y bitsLt_bf16_f32)
    (constant S256x4096 .f32 0x00000000#32)

/-- |d(r, j) − dist(r, j)| over the whole block. -/
def devs (x : FVec Ideal S256x512 .f32) (y : FVec Ideal S4096x512 .f32) (d : FVec Ideal S256x4096 .f32) : FVec Ideal S256x4096 .f32 :=
  absf (subf d (sqrt (maximumf
    (subf (addf (broadcastTo S256x4096 (sqCol x) broadcasts_S256x1_S256x4096) (broadcastTo S256x4096 (sqRow y) broadcasts_S1x4096_S256x4096))
      (mulf (broadcast S256x4096 (Scalar.ofBits .f32 0x40000000#32)) (prods x y)))
    (broadcast S256x4096 (Scalar.ofBits .f32 0x2B8CBCCC#32)))))

/-- The stored column is the deviations summed along each row, kept as a column. -/
theorem payload_eq (x : FVec Ideal S256x512 .f32) (y : FVec Ideal S4096x512 .f32) (d : FVec Ideal S256x4096 .f32) :
    k0_pay1 (F := Ideal) x y d
      = shapeCast S256x1 (multiReduction .add [1] S256 (devs x y d) 0x00000000#32 reduces_S256x4096_S256 (.inl rfl) rfl) shapeCasts_S256_S256x1 := rfl

/-! ## Each stage at an index -/

theorem sqCol_apply (x : FVec Ideal S256x512 .f32) (r : Fin 256) (u : Fin 1) : sqCol x (ix2 r u) = sqNorm x r := by
  unfold sqCol
  refine (shapeCast_a_a1_apply (multiReduction .add [1] S256 (mulf x x) 0x00000000#32 reduces_S256x512_S256 (.inl rfl) rfl) shapeCasts_S256_S256x1 r u).trans ?_
  exact rowSum_apply (mulf x x) reduces_S256x512_S256 (.inl rfl) rfl r

theorem sqRow_apply (y : FVec Ideal S4096x512 .f32) (u : Fin 1) (j : Fin 4096) : sqRow y (ix2 u j) = sqNorm y j := by
  unfold sqRow
  refine (shapeCast_a_1a_apply (multiReduction .add [1] S4096 (mulf y y) 0x00000000#32 reduces_S4096x512_S4096 (.inl rfl) rfl) shapeCasts_S4096_S1x4096 u j).trans ?_
  exact rowSum_apply (mulf y y) reduces_S4096x512_S4096 (.inl rfl) rfl j

theorem prods_apply (x : FVec Ideal S256x512 .f32) (y : FVec Ideal S4096x512 .f32) (r : Fin 256) (j : Fin 4096) :
    prods x y (ix2 r j) = rowDot x y r j := by
  unfold prods
  exact product_apply (truncf .bf16 x bitsLt_bf16_f32) (truncf .bf16 y bitsLt_bf16_f32) r j

theorem devs_apply (x : FVec Ideal S256x512 .f32) (y : FVec Ideal S4096x512 .f32) (d : FVec Ideal S256x4096 .f32)
    (r : Fin 256) (j : Fin 4096) : devs x y d (ix2 r j) = absDev x y d r j := by
  have e1 : broadcastTo S256x4096 (sqCol x) broadcasts_S256x1_S256x4096 (ix2 r j) = sqNorm x r :=
    (broadcastTo_a1_ab_apply (sqCol x) broadcasts_S256x1_S256x4096 r j).trans (sqCol_apply x r 0)
  have e2 : broadcastTo S256x4096 (sqRow y) broadcasts_S1x4096_S256x4096 (ix2 r j) = sqNorm y j :=
    (broadcastTo_1b_ab_apply (sqRow y) broadcasts_S1x4096_S256x4096 r j).trans (sqRow_apply y 0 j)
  have e3 := prods_apply x y r j
  show max (d (ix2 r j) - Ideal.sqrt (max (broadcastTo S256x4096 (sqCol x) broadcasts_S256x1_S256x4096 (ix2 r j)
        + broadcastTo S256x4096 (sqRow y) broadcasts_S1x4096_S256x4096 (ix2 r j)
        - Ideal.ofBits .f32 0x40000000#32 * prods x y (ix2 r j)) (Ideal.ofBits .f32 0x2B8CBCCC#32)))
      (-(d (ix2 r j) - Ideal.sqrt (max (broadcastTo S256x4096 (sqCol x) broadcasts_S256x1_S256x4096 (ix2 r j)
        + broadcastTo S256x4096 (sqRow y) broadcasts_S1x4096_S256x4096 (ix2 r j)
        - Ideal.ofBits .f32 0x40000000#32 * prods x y (ix2 r j)) (Ideal.ofBits .f32 0x2B8CBCCC#32)))) = _
  rw [e1, e2, e3]
  rfl

/-- The stored column at (r, q) is the stress of the block's row r against all of y. -/
theorem payload_apply (x : FVec Ideal S256x512 .f32) (y : FVec Ideal S4096x512 .f32) (d : FVec Ideal S256x4096 .f32)
    (r : Fin 256) (q : Fin 1) : k0_pay1 (F := Ideal) x y d (ix2 r q) = rowStress x y d r := by
  rw [payload_eq]
  refine (shapeCast_a_a1_apply (multiReduction .add [1] S256 (devs x y d) 0x00000000#32 reduces_S256x4096_S256 (.inl rfl) rfl) shapeCasts_S256_S256x1 r q).trans ?_
  refine (rowSum_apply (devs x y d) reduces_S256x4096_S256 (.inl rfl) rfl r).trans ?_
  unfold rowStress
  exact Finset.sum_congr rfl fun j _ => devs_apply x y d r j

end Cert.KernelIdeal.BlockStress

end
-- ==== Proof.ArrayValue.lean ====
/-
  From the sixteen output blocks to the result array.

  Grid point t reads rows 256·t … 256·t + 255 of the feature matrix (window 0) and of the distance matrix
  (window 2), the whole feature matrix (window 1), and writes back block t of the 4096×1 result. By the reading of
  one point's column, entry (r, 0) of block t is the stress of feature row 256·t + r against the whole matrix: block t
  of the stress column. The sixteen blocks tile the result's 4096 rows (row i lies in block i / 256), so the result
  array after the run is the stress column of the two arguments.
-/
import proofs.«154992_g58025008169618_cont_9to1_m_242_2_alg».proof.Proof.RunIdeal
import proofs.«154992_g58025008169618_cont_9to1_m_242_2_alg».proof.Proof.PayloadValue
import Idealize.ShloMosaic.Lib.Pipeline.Value

set_option maxRecDepth 16384

noncomputable section

namespace Cert.KernelIdeal.StressArray

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Stress Cert.KernelIdeal.BlockStress Cert.StressSpec

variable (m : (ℓ : Loc nD τ sig) → Buf (Elt Ideal) ℓ) (ρ : Dev nD → PrngReg)

/-- The arrays and the blocks, at their literal types. -/
abbrev feats (c : Dev nD) : FVec Ideal S4096x512 .f32 := V m c main_arg0
abbrev dists (c : Dev nD) : FVec Ideal S4096x4096 .f32 := V m c main_arg1
abbrev xblk (c : Dev nD) (t : Fin cfg0.N) : FVec Ideal S256x512 .f32 := iblk m c 0 t
abbrev yblk (c : Dev nD) (t : Fin cfg0.N) : FVec Ideal S4096x512 .f32 := iblk m c 1 t
abbrev dblk (c : Dev nD) (t : Fin cfg0.N) : FVec Ideal S256x4096 .f32 := iblk m c 2 t

theorem zero_offsets : (![0, 0] : Fin 2 → Nat) = fun _ => 0 := funext fun a => by fin_cases a <;> rfl

/-- The printed index maps over the grid: the streamed windows and the result move with the point along the rows, the
    whole-matrix window stays at block 0. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := N_0 ▸ t.isLt

/-- Row r of point t's feature block is row 256·t + r of the feature matrix. -/
theorem xblk_apply (c : Dev nD) (t : Fin cfg0.N) (r : Fin 256) (k : Fin 512) (I : Fin 4096) (hI : I.val = 256 * t.val + r.val) :
    xblk m c t (ix2 r k) = feats m c (ix2 I k) := by
  show V m c main_arg0 (((cfg0.win 0).blk t).view.emb (ix2 r k)) = V m c main_arg0 (ix2 I k)
  refine congrArg (V m c main_arg0) (funext fun a => Fin.ext ?_)
  obtain ⟨e0, e1, -⟩ := index_maps t
  match a with
  | ⟨0, _⟩ => show win0_0.index t (0 : Fin 2) * 256 + 1 * r.val = I.val; omega
  | ⟨1, _⟩ => show win0_0.index t (1 : Fin 2) * 512 + 1 * k.val = k.val; omega

/-- Row r of point t's distance block is row 256·t + r of the distance matrix. -/
theorem dblk_apply (c : Dev nD) (t : Fin cfg0.N) (r : Fin 256) (j : Fin 4096) (I : Fin 4096) (hI : I.val = 256 * t.val + r.val) :
    dblk m c t (ix2 r j) = dists m c (ix2 I j) := by
  show V m c main_arg1 (((cfg0.win 2).blk t).view.emb (ix2 r j)) = V m c main_arg1 (ix2 I j)
  refine congrArg (V m c main_arg1) (funext fun a => Fin.ext ?_)
  obtain ⟨-, -, -, -, e4, e5, -⟩ := index_maps t
  match a with
  | ⟨0, _⟩ => show win0_2.index t (0 : Fin 2) * 256 + 1 * r.val = I.val; omega
  | ⟨1, _⟩ => show win0_2.index t (1 : Fin 2) * 4096 + 1 * j.val = j.val; omega

/-- The whole-matrix window's block is the feature matrix at every point. -/
theorem yblk_eq (c : Dev nD) (t : Fin cfg0.N) : yblk m c t = feats m c := by
  funext i
  show V m c main_arg0 (((cfg0.win 1).blk t).view.emb i) = V m c main_arg0 i
  refine congrArg (V m c main_arg0) (funext fun a => Fin.ext ?_)
  obtain ⟨-, -, e2, e3, -⟩ := index_maps t
  match a with
  | ⟨0, _⟩ => show win0_1.index t (0 : Fin 2) * 4096 + 1 * (i 0).val = (i 0).val; omega
  | ⟨1, _⟩ => show win0_1.index t (1 : Fin 2) * 512 + 1 * (i 1).val = (i 1).val; omega

/-- WHAT POINT t WRITES BACK is block t of the stress column of the arguments. -/
theorem flushed_eq (c : Dev nD) (t : Fin cfg0.N) :
    (dats m 0 c).flushed 3 t = ((cfg0.win 3).blk t).view.read (Elt Ideal) (column (feats m c) (dists m c)) := by
  show (cfg0.win 3).cut (grid0.coords t) ((dats m 0 c).after 3 t) = _
  rw [after_3]
  unfold storedColumn
  rw [View.canon_unit_zero zero_offsets]
  simp only [View.ld_unit_zero (S := S256x512) zero_offsets, View.ld_unit_zero (S := S4096x512) zero_offsets,
    View.ld_unit_zero (S := S256x4096) zero_offsets]
  funext o
  obtain ⟨r, q, rfl⟩ : ∃ (r : Fin 256) (q : Fin 1), o = ix2 r q := ⟨o 0, o 1, eq_ix2 o⟩
  have ht := point_lt t
  have hq : q.val = 0 := by omega
  obtain ⟨-, -, -, -, -, -, e6, e7⟩ := index_maps t
  have hemb : ((cfg0.win 3).blk t).view.emb (ix2 r q) = ix2 (⟨256 * t.val + r.val, by omega⟩ : Fin 4096) (0 : Fin 1) := by
    funext a; apply Fin.ext
    match a with
    | ⟨0, _⟩ => show win0_3.index t (0 : Fin 2) * 256 + 1 * r.val = 256 * t.val + r.val; omega
    | ⟨1, _⟩ => show win0_3.index t (1 : Fin 2) * 1 + 1 * q.val = 0; omega
  show k0_pay1 (F := Ideal) (xblk m c t) (yblk m c t) (dblk m c t) (ix2 r q)
    = column (feats m c) (dists m c) (((cfg0.win 3).blk t).view.emb (ix2 r q))
  rw [payload_apply, hemb, column_apply, yblk_eq]
  exact rowStress_of_rows (feats m c) (dists m c) (xblk m c t) (dblk m c t) (feats m c) r _
    (fun k => xblk_apply m c t r k _ rfl) (fun j => dblk_apply m c t r j _ rfl)

/-- An index of the result is in point t's block iff its row is among the block's 256. -/
theorem mem_block (t : Fin cfg0.N) (i : S4096x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v0).slice (win0_3.rect t)).set ↔ _
  rw [View.set_slice_whole, Rect.mem_set_unit]
  exact Iff.rfl

/-- Every row of the result lies in the block of some point: row i in block i / 256. -/
theorem blocks_cover (i : S4096x1.Idx) :
    ∃ t : Fin cfg0.N, (cfg0.win 3).flush t = true ∧ i ∈ ((cfg0.win 3).blk t).view.set := by
  have hi0 : (i 0).val < 4096 := (i 0).isLt
  have hi1 : (i 1).val < 1 := (i 1).isLt
  let t : Fin cfg0.N := ⟨(i 0).val / 256, by have hN : cfg0.N = 16 := N_0; omega⟩
  obtain ⟨-, -, -, -, -, -, e6, e7⟩ := index_maps t
  have e6' : win0_3.index t (0 : Fin 2) = (i 0).val / 256 := e6
  refine ⟨t, flush0_3 t, ?_⟩
  rw [mem_block]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- THE RESULT ARRAY after the run is the stress column of the two arguments. -/
theorem result_array (c : Dev nD) : (dats m 0 c).arrAt 3 cfg0.N = column (feats m c) (dists m c) :=
  (dats m 0 c).arrAt_eq_of_cover 3 (column (feats m c) (dists m c)) (fun t _ => flushed_eq m c t) blocks_cover

/-- The run, read: the result array at the stress column of the arguments, the arguments unchanged. -/
theorem run : θ_run defs (onTc (τ := τ) (main (F := Ideal))) ⟨m, fun _ => 0, ρ⟩ (fun r => ∀ c : Dev nD,
      r.2.mem ((c.tc : Thread nD τ).loc main_v0) = column (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c).1.trans (result_array m c), (h c).2⟩) (run_main m ρ)

end Cert.KernelIdeal.StressArray

end
-- ==== Proof.RefValue.lean ====
/-
  The reference, read at an index, is the row stress of the whole feature matrix against itself.

  Stage by stage: the two row-sum stages are the squared norms |x_p|²; their broadcasts' sum at (p, j) is
  |x_p|² + |x_j|²; the matrix product with the transpose at (p, j) is ⟨x_p, x_j⟩; the floored root of their
  combination is the pairwise distance; the absolute deviation from the given distance, summed over j, is row p's
  stress, kept as a one-column matrix.
-/
import proofs.«154992_g58025008169618_cont_9to1_m_242_2_alg».proof.Proof.Gen.ReferenceIdeal.Read
import proofs.«154992_g58025008169618_cont_9to1_m_242_2_alg».proof.Proof.StressSpec

noncomputable section

namespace Cert.ReferenceIdeal.RefStress

open Cert.ReferenceIdeal Cert.ReferenceIdeal.Gen Cert.ReferenceIdeal.Read
open Idealize.ShloMosaic Idealize.ShloMosaic.ValueIdx Cert.StressSpec

variable (x0 : (⟨S4096x512, .f32⟩ : BufTy).Contents (Elt Ideal)) (x1 : (⟨S4096x4096, .f32⟩ : BufTy).Contents (Elt Ideal))

/-- The first row-sum stage at row p is |x_p|². -/
theorem rowsq_left (p : Fin 4096) : val_main_v1 (F := Ideal) x0 (ix1 p) = sqNorm x0 p := by
  rw [val_main_v1_apply]
  show Ideal.ofBits .f32 0x00000000#32 + _ = _
  rw [Ideal.ofBits_zero_f32, zero_add]
  unfold sqNorm
  refine Finset.sum_congr rfl fun k _ => ?_
  rw [val_main_v0_apply, show idx_main_v1 (ix1 p) k = ix2 p k from funext fun a => Fin.ext (by match a with | ⟨0, _⟩ => rfl | ⟨1, _⟩ => rfl)]
  rfl

/-- The second row-sum stage at row j is |x_j|². -/
theorem rowsq_right (j : Fin 4096) : val_main_v3 (F := Ideal) x0 (ix1 j) = sqNorm x0 j := by
  rw [val_main_v3_apply]
  show Ideal.ofBits .f32 0x00000000#32 + _ = _
  rw [Ideal.ofBits_zero_f32, zero_add]
  unfold sqNorm
  refine Finset.sum_congr rfl fun k _ => ?_
  rw [val_main_v2_apply, show idx_main_v3 (ix1 j) k = ix2 j k from funext fun a => Fin.ext (by match a with | ⟨0, _⟩ => rfl | ⟨1, _⟩ => rfl)]
  rfl

/-- The sum of the two broadcasts at (p, j) is |x_p|² + |x_j|². -/
theorem sumsq (p j : Fin 4096) : val_main_v8 (F := Ideal) x0 (ix2 p j) = sqNorm x0 p + sqNorm x0 j := by
  rw [val_main_v8_apply, val_main_v6_apply, val_main_v4_apply, val_main_v7_apply, val_main_v5_apply,
    show idx_main_v4 (idx_main_v6 (ix2 p j)) = ix1 p from funext fun a => Fin.ext (by match a with | ⟨0, _⟩ => rfl),
    show idx_main_v5 (idx_main_v7 (ix2 p j)) = ix1 j from funext fun a => Fin.ext (by match a with | ⟨0, _⟩ => rfl),
    rowsq_left, rowsq_right]
  rfl

/-- The product with the transpose at (p, j) is ⟨x_p, x_j⟩. -/
theorem gram (p j : Fin 4096) : val_main_v10 (F := Ideal) x0 (ix2 p j) = rowDot x0 x0 p j := by
  rw [val_main_v10_apply]
  unfold rowDot
  refine Finset.sum_congr rfl fun k _ => ?_
  rw [val_main_v9_apply, show lidx_main_v10 (ix2 p j) k = ix2 p k from funext fun a => Fin.ext (by match a with | ⟨0, _⟩ => rfl | ⟨1, _⟩ => rfl),
    show idx_main_v9 (ridx_main_v10 (ix2 p j) k) = ix2 j k from funext fun a => Fin.ext (by match a with | ⟨0, _⟩ => rfl | ⟨1, _⟩ => rfl)]

/-- The root stage at (p, j) is the pairwise distance. -/
theorem dist (p j : Fin 4096) : val_main_v16 (F := Ideal) x0 (ix2 p j) = pairDist x0 x0 p j := by
  rw [val_main_v16_apply, val_main_v15_apply, val_main_v13_apply, val_main_v12_apply, val_main_v11_apply,
    val_main_v14_apply, sumsq, gram]
  rfl

/-- The result at (p, q) is row p's stress. -/
theorem result_apply (p : Fin 4096) (q : Fin 1) :
    val_main_v20 (F := Ideal) x0 x1 (ix2 p q) = rowStress x0 x0 x1 p := by
  rw [val_main_v20_apply, show idx_main_v20 (ix2 p q) = ix1 p from funext fun a => Fin.ext (by match a with | ⟨0, _⟩ => rfl), val_main_v19_apply]
  show Ideal.ofBits .f32 0x00000000#32 + _ = _
  rw [Ideal.ofBits_zero_f32, zero_add]
  unfold rowStress
  refine Finset.sum_congr rfl fun j _ => ?_
  rw [show idx_main_v19 (ix1 p) j = ix2 p j from funext fun a => Fin.ext (by match a with | ⟨0, _⟩ => rfl | ⟨1, _⟩ => rfl), val_main_v18_apply, val_main_v17_apply, dist]
  rfl

/-- The reference's result array is the stress column of its two arguments. -/
theorem result_eq : val_main_v20 (F := Ideal) x0 x1 = column x0 x1 := by
  funext o
  obtain ⟨p, q, rfl⟩ : ∃ (p : Fin 4096) (q : Fin 1), o = ix2 p q := ⟨o 0, o 1, eq_ix2 o⟩
  exact result_apply x0 x1 p q

end Cert.ReferenceIdeal.RefStress

end
-- ==== Proof.lean ====
/-
  The row-stress kernel against its jnp reference, over the extended reals.

  Both programs compute, for every row i of the 4096×512 feature matrix x and the given 4096×4096 distances d,
      out(i) = Σ_j | d(i, j) − √ max(|x_i|² + |x_j|² − 2·⟨x_i, x_j⟩, ε) |
  with the same two binary32 constants (2.0 and the float nearest 1e-12) and every sum started from zero. The kernel
  does it in sixteen grid points of 256 rows each, the product on the matrix unit with operands narrowed to bf16 — the
  identity on the extended reals — and the reference on whole arrays with an explicit transpose; operation for
  operation the two are the same function (Proof/StressSpec.lean), so no algebraic law and no finiteness of the inputs
  is needed: the precondition is never opened.

  The kernel is handed the feature matrix through two windows (a streamed block and the whole matrix), so its run is
  proved against the launch theorem for windows that share an array, each of the two reading windows holding half of the
  array's share (Proof/RunBits.lean for the word-level program, Proof/RunIdeal.lean for the idealized one, over the one
  point's triple of Proof/PointBits.lean and Proof/PointIdeal.lean). The idealized kernel's result array is read off
  that run block by block (Proof/PayloadValue.lean: one point's column; Proof/ArrayValue.lean: the sixteen blocks tile
  the result), the reference's off its run stage by stage (Proof/RefValue.lean); both are `StressSpec.column` of the
  arguments. The idealization rewrote nothing, so `preserves` is `True`.
-/
import proofs.«154992_g58025008169618_cont_9to1_m_242_2_alg».proof.Defs
import proofs.«154992_g58025008169618_cont_9to1_m_242_2_alg».proof.Proof.Gen.Kernel
import proofs.«154992_g58025008169618_cont_9to1_m_242_2_alg».proof.Proof.Gen.KernelIdeal
import proofs.«154992_g58025008169618_cont_9to1_m_242_2_alg».proof.Proof.Gen.ReferenceIdeal
import proofs.«154992_g58025008169618_cont_9to1_m_242_2_alg».proof.Proof.Gen.Pre_finite_inputs
import proofs.«154992_g58025008169618_cont_9to1_m_242_2_alg».proof.Proof.Gen.ReferenceIdeal.Run
import proofs.«154992_g58025008169618_cont_9to1_m_242_2_alg».proof.Proof.Gen.ReferenceIdeal.Read
import proofs.«154992_g58025008169618_cont_9to1_m_242_2_alg».proof.Proof.RunBits
import proofs.«154992_g58025008169618_cont_9to1_m_242_2_alg».proof.Proof.ArrayValue
import proofs.«154992_g58025008169618_cont_9to1_m_242_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs to the end, faults nowhere, and leaves its arguments unchanged. -/
theorem frame_kernel : Cert.frame_Kernel := fun m ρ _ => Cert.Kernel.Stress.frame m ρ

/-- So does the idealized kernel. -/
theorem frame_kernelIdeal : Cert.frame_KernelIdeal := fun m ρ _ => Cert.KernelIdeal.Stress.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both runs end with the result at the stress column of the arguments. -/
theorem algebraic : Cert.algebraic_KernelIdeal_ReferenceIdeal := by
  intro m ρ m' ρ' _ hagree
  refine ⟨fun c => Cert.StressSpec.column (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.StressArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.ReferenceIdeal.RefStress.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
